-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x1024 : Shape := ⟨2, ![1024, 1024]⟩
abbrev S1024 : Shape := ⟨1, ![1024]⟩
abbrev S32 : Shape := ⟨1, ![32]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x512x1024 .f32) (main_arg1 : FVec F S32x512x1024 .f32) (main_arg2 : FVec F S1024x1024 .f32) (main_arg3 : FVec F S1024 .f32) (main_arg4 : IVec S32 32) (main_arg5 : IVec S32 32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x512x1024 : Shape := ⟨3, ![32, 512, 1024]⟩
abbrev S1024x1024 : Shape := ⟨2, ![1024, 1024]⟩
abbrev S1024 : Shape := ⟨1, ![1024]⟩
abbrev S32 : Shape := ⟨1, ![32]⟩
abbrev S1x1024 : Shape := ⟨2, ![1, 1024]⟩
abbrev S1x512x1024 : Shape := ⟨3, ![1, 512, 1024]⟩
abbrev S1 : Shape := ⟨1, ![1]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 8
  | .smem => 2
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | .local _ .smem, ⟨0, _⟩ => ⟨S32, .i32⟩
  | .local _ .smem, ⟨1, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x1024_S1024x1024_1_0 : S1024x1024.Transposes [1, 0] S1024x1024
  shapeCasts_S1024_S1x1024 : S1024.ShapeCasts S1x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  iota_S512x512_d0_w32 : S512x512.Iotas .tc 32 [0]
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S32x512x1024.size a
  hwx0_4 : ∀ i : grid0.Coords, EltTy.bits .f32 = 32 ∨ (Rect.block (s := S32x512x1024) S1x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg1) S1x512x1024.size reads0_1 false false 2 stage0_1 sem0_1 nbuf0_1 hstage0_1

abbrev spec0_2 : Pipeline.WinSpec sig grid0.rank :=
  Pipeline.WinSpec.ofSpec (Memref.whole main_v0) S1024x1024.size reads0_2 false true 1 stage0_2 sem0_2 nbuf0_2 hstage0_2

abbrev spec0_3 : Pipeline.WinSpec sig grid0.rank :=
  Pipeline.WinSpec.ofSpec (Memref.whole main_v1) S1x1024.size reads0_3 false true 1 stage0_3 sem0_3 nbuf0_3 hstage0_3

abbrev spec0_4 : Pipeline.WinSpec sig grid0.rank :=
  Pipeline.WinSpec.ofSpec (Memref.whole main_v2) S1x512x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S1024x1024 : Shape := ⟨2, ![1024, 1024]⟩
abbrev S1024 : Shape := ⟨1, ![1024]⟩
abbrev S32 : Shape := ⟨1, ![32]⟩
abbrev S1x1x1024 : Shape := ⟨3, ![1, 1, 1024]⟩
abbrev S32x512x512 : Shape := ⟨3, ![32, 512, 512]⟩
abbrev S_ : Shape := ⟨0, ![]⟩
abbrev S512 : Shape := ⟨1, ![512]⟩
abbrev S1x1x512 : Shape := ⟨3, ![1, 1, 512]⟩
abbrev S32x1x1 : Shape := ⟨3, ![32, 1, 1]⟩
abbrev S32x1x512 : Shape := ⟨3, ![32, 1, 512]⟩
abbrev S32x512 : Shape := ⟨2, ![32, 512]⟩
abbrev S32x512x1 : Shape := ⟨3, ![32, 512, 1]⟩
abbrev S1x512x1 : Shape := ⟨3, ![1, 512, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S1024x1024, .f32⟩
  | .hbm, ⟨3, _⟩ => ⟨S1024, .f32⟩
  | .hbm, ⟨4, _⟩ => ⟨S32, .i32⟩
  | .hbm, ⟨5, _⟩ => ⟨S32, .i32⟩
  | .hbm, ⟨6, _⟩ => ⟨S32x512x1024, .f32⟩
  | .hbm, ⟨7, _⟩ => ⟨S1x1x1024, .f32⟩
  | .hbm, ⟨8, _⟩ => ⟨S32x512x1024, .f32⟩
  | .hbm, ⟨9, _⟩ => ⟨S32x512x1024, .f32⟩
  | .hbm, ⟨10, _⟩ => ⟨S32x512x512, .f32⟩
  | .hbm, ⟨11, _⟩ => ⟨S_, .f32⟩
  | .hbm, ⟨12, _⟩ => ⟨S_, .f32⟩
  | .hbm, ⟨13, _⟩ => ⟨S32x512x512, .f32⟩
  | .hbm, ⟨14, _⟩ => ⟨S32x512x512, .f32⟩
  | .hbm, ⟨15, _⟩ => ⟨S512, .i32⟩
  | .hbm, ⟨16, _⟩ => ⟨S1x1x512, .i32⟩
  | .hbm, ⟨17, _⟩ => ⟨S32x1x1, .i32⟩
  | .hbm, ⟨18, _⟩ => ⟨S32x1x512, .i32⟩
  | .hbm, ⟨19, _⟩ => ⟨S32x1x512, .i32⟩
  | .hbm, ⟨20, _⟩ => ⟨S32x1x512, .i1⟩
  | .hbm, ⟨21, _⟩ => ⟨S_, .f32⟩
  | .hbm, ⟨22, _⟩ => ⟨S_, .f32⟩
  | .hbm, ⟨23, _⟩ => ⟨S32x512x512, .i1⟩
  | .hbm, ⟨24, _⟩ => ⟨S32x512x512, .f32⟩
  | .hbm, ⟨25, _⟩ => ⟨S32x512x512, .f32⟩
  | .hbm, ⟨26, _⟩ => ⟨S_, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S32x512x1, .f32⟩
  | .hbm, ⟨32, _⟩ => ⟨S32x512x512, .f32⟩
  | .hbm, ⟨33, _⟩ => ⟨S32x512x512, .f32⟩
  | .hbm, ⟨34, _⟩ => ⟨S32x512x512, .f32⟩
  | .hbm, ⟨35, _⟩ => ⟨S_, .f32⟩
  | .hbm, ⟨36, _⟩ => ⟨S32x512, .f32⟩
  | .hbm, ⟨37, _⟩ => ⟨S32x512x1, .f32⟩
  | .hbm, ⟨38, _⟩ => ⟨S32x512x512, .f32⟩
  | .hbm, ⟨39, _⟩ => ⟨S32x512x512, .f32⟩
  | .hbm, ⟨40, _⟩ => ⟨S512, .i32⟩
  | .hbm, ⟨41, _⟩ => ⟨S1x512x1, .i32⟩
  | .hbm, ⟨42, _⟩ => ⟨S32x1x1, .i32⟩
  | .hbm, ⟨43, _⟩ => ⟨S32x512x1, .i32⟩
  | .hbm, ⟨44, _⟩ => ⟨S32x512x1, .i32⟩
  | .hbm, ⟨45, _⟩ => ⟨S32x512x1, .i1⟩
  | .hbm, ⟨46, _⟩ => ⟨S_, .f32⟩
  | .hbm, ⟨47, _⟩ => ⟨S_, .f32⟩
  | .hbm, ⟨48, _⟩ => ⟨S32x512x512, .i1⟩
  | .hbm, ⟨49, _⟩ => ⟨S32x512x512, .f32⟩
  | .hbm, ⟨50, _⟩ => ⟨S32x512x512, .f32⟩
  | .hbm, ⟨51, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  bcast_S_S32x512x512 : S_.BroadcastsInDim S32x512x512 (![] : Fin 0 → Fin S32x512x512.rank)
  bcast_S512_S1x1x512_2 : S512.BroadcastsInDim S1x1x512 (![2] : Fin 1 → Fin S1x1x512.rank)
  bcast_S32_S32x1x1_0 : S32.BroadcastsInDim S32x1x1 (![0] : Fin 1 → Fin S32x1x1.rank)
  bcast_S1x1x512_S32x1x512_0_1_2 : S1x1x512.BroadcastsInDim S32x1x512 (![0, 1, 2] : Fin 3 → Fin S32x1x512.rank)
  bcast_S32x1x1_S32x1x512_0_1_2 : S32x1x1.BroadcastsInDim S32x1x512 (![0, 1, 2] : Fin 3 → Fin S32x1x512.rank)
  bcast_S32x1x512_S32x512x512_0_1_2 : S32x1x512.BroadcastsInDim S32x512x512 (![0, 1, 2] : Fin 3 → Fin S32x512x512.rank)
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  bcast_S512_S1x512x1_1 : S512.BroadcastsInDim S1x512x1 (![1] : Fin 1 → Fin S1x512x1.rank)
  bcast_S1x512x1_S32x512x1_0_1_2 : S1x512x1.BroadcastsInDim S32x512x1 (![0, 1, 2] : Fin 3 → Fin S32x512x1.rank)
  bcast_S32x1x1_S32x512x1_0_1_2 : S32x1x1.BroadcastsInDim S32x512x1 (![0, 1, 2] : Fin 3 → Fin S32x512x1.rank)
  dot_S32x512x1024_S1024x1024_S32x512x1024_2_1_01_0_n_n_wf : DotDims.WF S32x512x1024 S1024x1024 S32x512x1024 [2] [1] [0, 1] [0] [] []
  dot_S32x512x1024_S32x512x1024_S32x512x512_2_2_1_1_0_0_wf : DotDims.WF S32x512x1024 S32x512x1024 S32x512x512 [2] [2] [1] [1] [0] [0]
  dot_S32x512x512_S32x512x1024_S32x512x1024_2_1_1_2_0_0_wf : DotDims.WF S32x512x512 S32x512x1024 S32x512x1024 [2] [1] [1] [2] [0] [0]

variable [Facts₀]

def dot_S32x512x1024_S1024x1024_S32x512x1024_2_1_01_0_n_n : DotDims S32x512x1024 S1024x1024 S32x512x1024 where
  lhsContracting := [2]
  rhsContracting := [1]
  lhsNonContracting := [0, 1]
  rhsNonContracting := [0]
  lhsBatch := []
  rhsBatch := []
  wf := dot_S32x512x1024_S1024x1024_S32x512x1024_2_1_01_0_n_n_wf
def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf

class Facts : Prop extends Facts₀ where

variable [Facts]
-- ==== Proof.Attention.lean ====
/-
  The function both programs compute, for ONE batch entry, over plain coordinates.

  With `xc` the context states (512 × 1024), `xq` the question states (512 × 1024), `w` the linear layer's weight
  read `w o h` (output feature `o`, input feature `h`), `bias` its bias, and `ql`, `cl` the two lengths as signed
  32-bit words:
    proj j o     = (Σ_h xq j h · w o h) + bias o                      the projected question states
    rawScore i j = Σ_h xc i h · proj j h                               context row against projected question row
    masked i j   = rawScore i j · (1/32)   if j < ql (signed),  else the pad score (the word of -1e7)
    rowMax i     = max init (fold of max over j of masked i j, from init)   init the word both programs start from
    expo i j     = exp (masked i j - rowMax i)
    prob i j     = expo i j / Σ_k expo i k   if i < cl (signed),  else 0
    context i h  = Σ_j prob i j · xq j h
  Everything is on the extended reals; the two words that are only ever compared with themselves (the pad score
  and the maximum's starting word) are kept as words. The one place where the two programs differ is the scale:
  one multiplies the raw score by the word of 1/32, the other divides it by the square root of the word of 1024;
  `div_sqrt_width` says these agree at every extended real, since 1024 = 32².
-/
import Idealize.ShloMosaic.PureOps.Ideal
import Idealize.ShloMosaic.PureOps.Ideal.Laws
import Idealize.ShloMosaic.Lib.ValueIdx

noncomputable section

namespace Cert.Attention

open Idealize.ShloMosaic

/-- The score written into a padded question column: the f32 word of -1e7, never evaluated. -/
abbrev padScore : EReal := Ideal.ofBits .f32 0xCB189680#32
/-- The word a row's maximum is started from (and compared with once more afterwards), never evaluated. -/
abbrev maxInit : EReal := Ideal.ofBits .f32 0xFF800000#32

section Spec

variable (xc xq : Fin 512 → Fin 1024 → EReal) (w : Fin 1024 → Fin 1024 → EReal) (bias : Fin 1024 → EReal)
  (ql cl : BitVec 32)

/-- The projected question states: row `j` of `xq` against row `o` of the weight, plus the bias. -/
def proj (j : Fin 512) (o : Fin 1024) : EReal := (∑ h : Fin 1024, xq j h * w o h) + bias o

/-- Context row `i` against projected question row `j`, before scaling. -/
def rawScore (i j : Fin 512) : EReal := ∑ h : Fin 1024, xc i h * proj xq w bias j h

/-- The scaled score, with the pad score in the question columns at or beyond the question length. -/
def masked (i j : Fin 512) : EReal :=
  Scalar.select (IntOp.cmpi .slt (BitVec.ofNat 32 j.val) ql) (rawScore xc xq w bias i j * ((1 / 32 : ℝ) : EReal)) padScore

/-- The row's maximum, as both programs take it: a fold of `max` from the starting word, then `max` with that word. -/
def rowMax (i : Fin 512) : EReal :=
  max maxInit ((Finset.univ : Finset (Fin 512)).fold max maxInit (masked xc xq w bias ql i))

/-- The exponential of the masked score less its row's maximum. -/
def expo (i j : Fin 512) : EReal := Ideal.exp (masked xc xq w bias ql i j - rowMax xc xq w bias ql i)

/-- The softmax over the question axis, zeroed in the context rows at or beyond the context length. -/
def prob (i j : Fin 512) : EReal :=
  Scalar.select (IntOp.cmpi .slt (BitVec.ofNat 32 i.val) cl)
    (Ideal.div (expo xc xq w bias ql i j) (∑ k : Fin 512, expo xc xq w bias ql i k)) 0

/-- The attended question states. -/
def context (i : Fin 512) (h : Fin 1024) : EReal := ∑ j : Fin 512, prob xc xq w bias ql cl i j * xq j h

end Spec

/-- The whole result array as one function of the six argument arrays: entry `(b, i, h)` is `context` of batch
    entry `b`'s two slices, the shared weight and bias, and that entry's two lengths. The weight is read as given,
    `wt (o, h)`: output feature first. -/
def attend (oc oq : (⟨3, ![32, 512, 1024]⟩ : Shape).Idx → EReal) (wt : (⟨2, ![1024, 1024]⟩ : Shape).Idx → EReal)
    (bs : (⟨1, ![1024]⟩ : Shape).Idx → EReal) (ql cl : (⟨1, ![32]⟩ : Shape).Idx → BitVec 32) :
    (⟨3, ![32, 512, 1024]⟩ : Shape).Idx → EReal :=
  fun y => context (fun i h => oc (ValueIdx.ix3 (y 0) i h)) (fun j h => oq (ValueIdx.ix3 (y 0) j h))
    (fun o h => wt (ValueIdx.ix2 o h)) (fun o => bs (ValueIdx.ix1 o)) (ql (ValueIdx.ix1 (y 0))) (cl (ValueIdx.ix1 (y 0)))
    (y 1) (y 2)

/-! ## The two constants that are evaluated, and the scale law -/

/-- The word `0x3D000000` is the real 1/32. -/
theorem scale_word : Ideal.ofBits .f32 0x3D000000#32 = ((1 / 32 : ℝ) : EReal) := by
  simp [Ideal.ofBits, Ideal.ieee, -EReal.coe_mul]; norm_num

/-- The word `0x44800000` is the real 1024. -/
theorem width_word : Ideal.ofBits .f32 0x44800000#32 = ((1024 : ℝ) : EReal) := by
  simp [Ideal.ofBits, Ideal.ieee, -EReal.coe_mul]; norm_num

/-- The square root of 1024 is 32. -/
theorem sqrt_width : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Dividing by the square root of the word of 1024 is multiplying by 1/32, at every extended real. -/
theorem div_sqrt_width (x : EReal) :
    Ideal.div x (Ideal.sqrt (Ideal.ofBits .f32 0x44800000#32)) = x * ((1 / 32 : ℝ) : EReal) := by
  rw [width_word, sqrt_width]
  exact Ideal.div_coe (by norm_num) x

end Cert.Attention

end
-- ==== Proof.Reference.lean ====
/-
  The reference program computes the attention function of `Attention.lean`.

  Each stage of the reference is read at plain coordinates: batch entry `b`, context row `i`, question row `j`,
  feature `h` / `o`. The stages, in the order the reference takes them: the projected question states, the raw
  score, the scaled and padded score, the row maximum, the exponential, its row sum, the softmax with the padded
  context rows zeroed, and the attended question states. The one arithmetic step is the scale: the reference divides
  the raw score by the square root of the word of 1024, which is the product with 1/32 at every extended real.
-/
import proofs.«429702_j6665789243605_1_alg».proof.Proof.Gen.ReferenceIdeal.Read
import proofs.«429702_j6665789243605_1_alg».proof.Proof.Attention

noncomputable section

namespace Cert.ReferenceIdeal.RefValue

open Cert.ReferenceIdeal Idealize.ShloMosaic Idealize.ShloMosaic.ValueIdx

section Stages

variable (x0 x1 : (⟨S32x512x1024, .f32⟩ : BufTy).Contents (Elt Ideal)) (x2 : (⟨S1024x1024, .f32⟩ : BufTy).Contents (Elt Ideal))
  (x3 : (⟨S1024, .f32⟩ : BufTy).Contents (Elt Ideal)) (x4 x5 : (⟨S32, .i32⟩ : BufTy).Contents (Elt Ideal))

/-- The projected question states: question row `j` of batch entry `b` against weight row `o`, plus the bias. -/
theorem proj_eq (b : Fin 32) (j : Fin 512) (o : Fin 1024) :
    Read.val_main_v3 (F := Ideal) x1 x2 x3 (ix3 b j o)
      = Attention.proj (fun j h => x1 (ix3 b j h)) (fun o h => x2 (ix2 o h)) (fun o => x3 (ix1 o)) j o := by
  have el : ∀ k : Fin 1024, Read.lidx_main_v0 (ix3 b j o) k = ix3 b j k := fun k =>
    funext fun a => Fin.ext (by match a with | ⟨0, _⟩ => rfl | ⟨1, _⟩ => rfl | ⟨2, _⟩ => rfl)
  have er : ∀ k : Fin 1024, Read.ridx_main_v0 (ix3 b j o) k = ix2 o k := fun k =>
    funext fun a => Fin.ext (by match a with | ⟨0, _⟩ => rfl | ⟨1, _⟩ => rfl)
  have eb : Read.idx_main_v1 (Read.idx_main_v2 (ix3 b j o)) = ix1 o :=
    funext fun a => Fin.ext (by match a with | ⟨0, _⟩ => rfl)
  rw [Read.val_main_v3_apply, Read.val_main_v0_apply, Read.val_main_v2_apply, Read.val_main_v1_apply]
  simp only [el, er, eb, Ideal.addf_def]
  rfl

/-- The raw score: context row `i` against projected question row `j`, before scaling. -/
theorem rawScore_eq (b : Fin 32) (i j : Fin 512) :
    Read.val_main_v4 (F := Ideal) x0 x1 x2 x3 (ix3 b i j)
      = Attention.rawScore (fun i h => x0 (ix3 b i h)) (fun j h => x1 (ix3 b j h)) (fun o h => x2 (ix2 o h))
          (fun o => x3 (ix1 o)) i j := by
  have el : ∀ k : Fin 1024, Read.lidx_main_v4 (ix3 b i j) k = ix3 b i k := fun k =>
    funext fun a => Fin.ext (by match a with | ⟨0, _⟩ => rfl | ⟨1, _⟩ => rfl | ⟨2, _⟩ => rfl)
  have er : ∀ k : Fin 1024, Read.ridx_main_v4 (ix3 b i j) k = ix3 b j k := fun k =>
    funext fun a => Fin.ext (by match a with | ⟨0, _⟩ => rfl | ⟨1, _⟩ => rfl | ⟨2, _⟩ => rfl)
  rw [Read.val_main_v4_apply]
  simp only [el, er, proj_eq]
  rfl

/-- The scaled score with the pad score in the question columns at or beyond the question length. The reference
    divides the raw score by the square root of the word of 1024: the product with 1/32. -/
theorem masked_eq (b : Fin 32) (i j : Fin 512) :
    Read.val_main_v14 (F := Ideal) x0 x1 x2 x3 x4 (ix3 b i j)
      = Attention.masked (fun i h => x0 (ix3 b i h)) (fun j h => x1 (ix3 b j h)) (fun o h => x2 (ix2 o h))
          (fun o => x3 (ix1 o)) (x4 (ix1 b)) i j := by
  have eq : Read.idx_main_v10 (Read.idx_main_v12 (Read.idx_main_call0_v1 (ix3 b i j))) = ix1 b :=
    funext fun a => Fin.ext (by match a with | ⟨0, _⟩ => rfl)
  rw [Read.val_main_v14_apply, Read.val_main_call0_v1_apply, Read.val_main_v13_apply, Read.val_main_v11_apply,
    Read.val_main_v9_apply, Read.val_main_v8_apply, Read.val_main_v12_apply, Read.val_main_v10_apply,
    Read.val_main_v7_apply, Read.val_main_v6_apply, Read.val_main_v5_apply, Read.val_main_cst_apply,
    Read.val_main_call0_v2_apply, Read.val_main_call0_v0_apply, Read.val_main_cst_0_apply, rawScore_eq, eq]
  simp only [Ideal.hostDivf_def, Ideal.hostUnary_sqrt_def, Ideal.ofBits_def, Attention.div_sqrt_width]
  rfl

/-- The shape fact behind every reduction over the question axis: dropping axis 2 of [32, 512, 512] leaves [32, 512]. -/
theorem reduces_q : S32x512x512.Reduces [2] S32x512 := by decide

/-- The index over `(b, i)` with question coordinate `k` inserted is `(b, i, k)`. -/
theorem lift_q (b : Fin 32) (i k : Fin 512) : reduces_q.lift (ix2 b i) k = ix3 b i k :=
  funext fun a => Fin.ext (by match a with | ⟨0, _⟩ => rfl | ⟨1, _⟩ => rfl | ⟨2, _⟩ => rfl)

/-- The row maximum: the fold of `max` over the question axis from the starting word, then `max` with that word. -/
theorem rowMax_eq (b : Fin 32) (i : Fin 512) :
    Read.val_main_v17 (F := Ideal) x0 x1 x2 x3 x4 (ix2 b i)
      = Attention.rowMax (fun i h => x0 (ix3 b i h)) (fun j h => x1 (ix3 b j h)) (fun o h => x2 (ix2 o h))
          (fun o => x3 (ix1 o)) (x4 (ix1 b)) i := by
  have hf : (Read.val_main_v14 (F := Ideal) x0 x1 x2 x3 x4 ∘ reduces_q.lift (ix2 b i))
      = Attention.masked (fun i h => x0 (ix3 b i h)) (fun j h => x1 (ix3 b j h)) (fun o h => x2 (ix2 o h))
          (fun o => x3 (ix1 o)) (x4 (ix1 b)) i :=
    funext fun (k : Fin 512) =>
      (congrArg (Read.val_main_v14 (F := Ideal) x0 x1 x2 x3 x4) (lift_q b i k)).trans (masked_eq x0 x1 x2 x3 x4 b i k)
  rw [Read.val_main_v17_apply, Read.val_main_v16_apply, Read.val_main_cst_2_apply]
  unfold Read.val_main_v15
  rw [Host.reduce_eq_fold_single (FloatOps.maximumf (F := Ideal) (φ := .f32)) _ _ _ reduces_q _ (ix2 b i), hf]
  rfl

/-- The exponential of the masked score less its row's maximum. -/
theorem expo_eq (b : Fin 32) (i j : Fin 512) :
    Read.val_main_v21 (F := Ideal) x0 x1 x2 x3 x4 (ix3 b i j)
      = Attention.expo (fun i h => x0 (ix3 b i h)) (fun j h => x1 (ix3 b j h)) (fun o h => x2 (ix2 o h))
          (fun o => x3 (ix1 o)) (x4 (ix1 b)) i j := by
  have er : Read.idx_main_v18 (Read.idx_main_v19 (ix3 b i j)) = ix2 b i :=
    funext fun a => Fin.ext (by match a with | ⟨0, _⟩ => rfl | ⟨1, _⟩ => rfl)
  rw [Read.val_main_v21_apply, Read.val_main_v20_apply, Read.val_main_v19_apply, Read.val_main_v18_apply, er,
    masked_eq, rowMax_eq]
  rfl

/-- The row sum of the exponentials: the reference starts the sum from the zero word. -/
theorem expoSum_eq (b : Fin 32) (i : Fin 512) :
    Read.val_main_v22 (F := Ideal) x0 x1 x2 x3 x4 (ix2 b i)
      = ∑ k : Fin 512, Attention.expo (fun i h => x0 (ix3 b i h)) (fun j h => x1 (ix3 b j h)) (fun o h => x2 (ix2 o h))
          (fun o => x3 (ix1 o)) (x4 (ix1 b)) i k := by
  have ek : ∀ k : Fin 512, Read.idx_main_v22 (ix2 b i) k = ix3 b i k := fun k =>
    funext fun a => Fin.ext (by match a with | ⟨0, _⟩ => rfl | ⟨1, _⟩ => rfl | ⟨2, _⟩ => rfl)
  rw [Read.val_main_v22_apply, Read.val_main_cst_3_apply]
  simp only [ek, expo_eq, Ideal.ofBits_def, Ideal.ofBits_zero_f32, zero_add]

/-- The softmax over the question axis, zeroed in the context rows at or beyond the context length. -/
theorem prob_eq (b : Fin 32) (i j : Fin 512) :
    Read.val_main_v32 (F := Ideal) x0 x1 x2 x3 x4 x5 (ix3 b i j)
      = Attention.prob (fun i h => x0 (ix3 b i h)) (fun j h => x1 (ix3 b j h)) (fun o h => x2 (ix2 o h))
          (fun o => x3 (ix1 o)) (x4 (ix1 b)) (x5 (ix1 b)) i j := by
  have ec : Read.idx_main_v28 (Read.idx_main_v30 (Read.idx_main_call1_v1 (ix3 b i j))) = ix1 b :=
    funext fun a => Fin.ext (by match a with | ⟨0, _⟩ => rfl)
  have es : Read.idx_main_v23 (Read.idx_main_v24 (ix3 b i j)) = ix2 b i :=
    funext fun a => Fin.ext (by match a with | ⟨0, _⟩ => rfl | ⟨1, _⟩ => rfl)
  rw [Read.val_main_v32_apply, Read.val_main_call1_v1_apply, Read.val_main_v31_apply, Read.val_main_v29_apply,
    Read.val_main_v27_apply, Read.val_main_v26_apply, Read.val_main_v30_apply, Read.val_main_v28_apply,
    Read.val_main_v25_apply, Read.val_main_v24_apply, Read.val_main_v23_apply,
    Read.val_main_call1_v2_apply, Read.val_main_call1_v0_apply, Read.val_main_cst_4_apply, ec, es, expo_eq, expoSum_eq]
  simp only [Ideal.hostDivf_def, Ideal.ofBits_def, Ideal.ofBits_zero_f32]
  rfl

/-- The attended question states: the softmax row `i` against question column `h`. -/
theorem context_eq (b : Fin 32) (i : Fin 512) (h : Fin 1024) :
    Read.val_main_v33 (F := Ideal) x0 x1 x2 x3 x4 x5 (ix3 b i h)
      = Attention.context (fun i h => x0 (ix3 b i h)) (fun j h => x1 (ix3 b j h)) (fun o h => x2 (ix2 o h))
          (fun o => x3 (ix1 o)) (x4 (ix1 b)) (x5 (ix1 b)) i h := by
  have el : ∀ k : Fin 512, Read.lidx_main_v33 (ix3 b i h) k = ix3 b i k := fun k =>
    funext fun a => Fin.ext (by match a with | ⟨0, _⟩ => rfl | ⟨1, _⟩ => rfl | ⟨2, _⟩ => rfl)
  have er : ∀ k : Fin 512, Read.ridx_main_v33 (ix3 b i h) k = ix3 b k h := fun k =>
    funext fun a => Fin.ext (by match a with | ⟨0, _⟩ => rfl | ⟨1, _⟩ => rfl | ⟨2, _⟩ => rfl)
  rw [Read.val_main_v33_apply]
  simp only [el, er, prob_eq]
  rfl

end Stages

/-- The reference's result is the attention function of its six arguments. -/
theorem result_eq_attend (x0 x1 : (⟨S32x512x1024, .f32⟩ : BufTy).Contents (Elt Ideal)) (x2 : (⟨S1024x1024, .f32⟩ : BufTy).Contents (Elt Ideal))
    (x3 : (⟨S1024, .f32⟩ : BufTy).Contents (Elt Ideal)) (x4 x5 : (⟨S32, .i32⟩ : BufTy).Contents (Elt Ideal)) :
    Cert.ReferenceIdeal.Read.val_main_v33 (F := Ideal) x0 x1 x2 x3 x4 x5 = Cert.Attention.attend x0 x1 x2 x3 x4 x5 := by
  funext y
  rw [eq_ix3 y]
  exact context_eq x0 x1 x2 x3 x4 x5 (y 0) (y 1) (y 2)

end Cert.ReferenceIdeal.RefValue

end
-- ==== Proof.Products.lean ====
/-
  The kernel body's three matrix products, each read at an output entry `(p, o)` as a plain sum over the
  contracted coordinate: into a zero accumulator, at the extended reals, a product of blocks is the sum over `k` of
  the left block at `(p, k)` times the right block at `(k, o)` (rows against columns) or at `(o, k)` (rows against
  rows). The four small lemmas before each product say where the dot's operand indices sit: the kept coordinate of
  the output, or the contracted one.
-/
import proofs.«429702_j6665789243605_1_alg».proof.Proof.Gen.KernelIdeal
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx

/-! ## a [512,1024] block against a [1024,1024] one, rows against columns -/

theorem proj_l0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem proj_l1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem proj_r0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem proj_r1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product at `(p, o)`: the sum over `k` of the left block at `(p, k)` times the right block at `(k, o)`. -/
theorem proj_matmul (l : FVec Ideal S512x1024 .bf16) (r : FVec Ideal S1024x1024 .bf16) (p : Fin 512) (o : Fin 1024) :
    matmul dot_S512x1024_S1024x1024_S512x1024_1_0_0_1_n_n none l r (constant S512x1024 .f32 0x00000000#32) (ix2 p o)
      = ∑ k : Fin 1024, l (ix2 p k) * r (ix2 k o) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p o) ((contrEquiv1 dot_S512x1024_S1024x1024_S512x1024_1_0_0_1_n_n 1024 rfl rfl).symm k) = ix2 p k := funext fun a => Fin.ext (by
    match a with
    | ⟨0, _⟩ => exact proj_l0 _ _
    | ⟨1, _⟩ => exact (proj_l1 _ _).trans hk)
  have er : dot_S512x1024_S1024x1024_S512x1024_1_0_0_1_n_n.rhsIdx (ix2 p o) ((contrEquiv1 dot_S512x1024_S1024x1024_S512x1024_1_0_0_1_n_n 1024 rfl rfl).symm k) = ix2 k o := funext fun a => Fin.ext (by
    match a with
    | ⟨0, _⟩ => exact (proj_r0 _ _).trans hk
    | ⟨1, _⟩ => exact proj_r1 _ _)
  rw [el, er]

/-! ## a [512,1024] block against a [512,1024] one, rows against rows -/

theorem score_l0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem score_l1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q
theorem score_r0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem score_r1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

/-- The product at `(p, o)`: the sum over `k` of the left block at `(p, k)` times the right block at `(o, k)`. -/
theorem score_matmul (l : FVec Ideal S512x1024 .bf16) (r : FVec Ideal S512x1024 .bf16) (p : Fin 512) (o : Fin 512) :
    matmul dot_S512x1024_S512x1024_S512x512_1_1_0_0_n_n none l r (constant S512x512 .f32 0x00000000#32) (ix2 p o)
      = ∑ k : Fin 1024, l (ix2 p k) * r (ix2 o k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p o) ((contrEquiv1 dot_S512x1024_S512x1024_S512x512_1_1_0_0_n_n 1024 rfl rfl).symm k) = ix2 p k := funext fun a => Fin.ext (by
    match a with
    | ⟨0, _⟩ => exact score_l0 _ _
    | ⟨1, _⟩ => exact (score_l1 _ _).trans hk)
  have er : dot_S512x1024_S512x1024_S512x512_1_1_0_0_n_n.rhsIdx (ix2 p o) ((contrEquiv1 dot_S512x1024_S512x1024_S512x512_1_1_0_0_n_n 1024 rfl rfl).symm k) = ix2 o k := funext fun a => Fin.ext (by
    match a with
    | ⟨0, _⟩ => exact score_r0 _ _
    | ⟨1, _⟩ => exact (score_r1 _ _).trans hk)
  rw [el, er]

/-! ## a [512,512] block against a [512,1024] one, rows against columns -/

theorem ctx_l0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem ctx_l1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
theorem ctx_r0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
theorem ctx_r1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product at `(p, o)`: the sum over `k` of the left block at `(p, k)` times the right block at `(k, o)`. -/
theorem ctx_matmul (l : FVec Ideal S512x512 .bf16) (r : FVec Ideal S512x1024 .bf16) (p : Fin 512) (o : Fin 1024) :
    matmul dot_S512x512_S512x1024_S512x1024_1_0_0_1_n_n none l r (constant S512x1024 .f32 0x00000000#32) (ix2 p o)
      = ∑ k : Fin 512, l (ix2 p k) * r (ix2 k o) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p o) ((contrEquiv1 dot_S512x512_S512x1024_S512x1024_1_0_0_1_n_n 512 rfl rfl).symm k) = ix2 p k := funext fun a => Fin.ext (by
    match a with
    | ⟨0, _⟩ => exact ctx_l0 _ _
    | ⟨1, _⟩ => exact (ctx_l1 _ _).trans hk)
  have er : dot_S512x512_S512x1024_S512x1024_1_0_0_1_n_n.rhsIdx (ix2 p o) ((contrEquiv1 dot_S512x512_S512x1024_S512x1024_1_0_0_1_n_n 512 rfl rfl).symm k) = ix2 k o := funext fun a => Fin.ext (by
    match a with
    | ⟨0, _⟩ => exact (ctx_r0 _ _).trans hk
    | ⟨1, _⟩ => exact ctx_r1 _ _)
  rw [el, er]

end Cert.KernelIdeal.Block

end
-- ==== Proof.LibKeepdims.lean ====
/-
  Two layout reads for a reduction that keeps its reduced axis as a unit axis: a vector `[a]` viewed as a column
  `[a, 1]`, and a column `[a, 1]` spread over `[a, b]`. Both read, at `(p, ·)`, the vector's entry `p`. Stated for
  indices written by coordinates, beside the row forms the library has.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Body.lean ====
/-
  The kernel body's stored block is the attention function of `Attention.lean`, entry by entry.

  The body works on one batch entry: the context block and the question block (each [1, 512, 1024]), the weight
  block given transposed (entry `(h, o)` is the weight of input feature `h` for output feature `o`), the bias
  row [1, 1024] and the two lengths. Its intermediate blocks are named here in the order it forms them: the
  projected question block, the raw score block, the scaled and padded score block, the vector of row maxima, the
  block of exponentials and the softmax block. Each is read at plain coordinates (`i` a context row, `j` a question
  row, `h` / `o` a feature) against the matching quantity of the specification, each using the one before; the
  stored block is the masked softmax block against the question block. The one arithmetic fact is that the scale
  word `0x3D000000` is 1/32.
-/
import proofs.«429702_j6665789243605_1_alg».proof.Proof.Gen.KernelIdeal.Skeleton
import proofs.«429702_j6665789243605_1_alg».proof.Proof.Attention
import proofs.«429702_j6665789243605_1_alg».proof.Proof.Products
import proofs.«429702_j6665789243605_1_alg».proof.Proof.LibKeepdims

noncomputable section

namespace Cert.KernelIdeal.Block

open Cert.KernelIdeal Cert.KernelIdeal.Gen Idealize.ShloMosaic Idealize.ShloMosaic.ValueIdx

/-! ## The body's intermediate blocks, as it forms them -/

section Blocks

variable {F : FTy → Type} [FloatOps F]

/-- The projected question block: the question block against the transposed weight block, plus the bias row. -/
def projBlock (v7 : Vec F S1x512x1024 .f32) (v10 : Vec F S1024x1024 .f32) (v13 : Vec F S1x1024 .f32) :
    FVec F S512x1024 .f32 :=
  addf
    (matmul dot_S512x1024_S1024x1024_S512x1024_1_0_0_1_n_n none (k0_pay2 v7)
      (truncf .bf16 (shapeCast S1024x1024 v10 shapeCasts_S1024x1024_S1024x1024) bitsLt_bf16_f32)
      (constant S512x1024 .f32 0x00000000#32))
    (broadcastTo S512x1024 (shapeCast S1x1024 v13 shapeCasts_S1x1024_S1x1024) broadcasts_S1x1024_S512x1024)

/-- The raw score block: the context block's rows against the projected question block's rows. -/
def rawBlock (v4 v7 : Vec F S1x512x1024 .f32) (v10 : Vec F S1024x1024 .f32) (v13 : Vec F S1x1024 .f32) :
    FVec F S512x512 .f32 :=
  matmul dot_S512x1024_S512x1024_S512x512_1_1_0_0_n_n none
    (truncf .bf16 (shapeCast S512x1024 v4 shapeCasts_S1x512x1024_S512x1024) bitsLt_bf16_f32)
    (truncf .bf16 (projBlock v7 v10 v13) bitsLt_bf16_f32) (constant S512x512 .f32 0x00000000#32)

/-- The scaled score block, with the pad score in the question columns at or beyond the question length. -/
def maskedBlock (v1 : Elt F .i32) (v4 v7 : Vec F S1x512x1024 .f32) (v10 : Vec F S1024x1024 .f32)
    (v13 : Vec F S1x1024 .f32) : FVec F S512x512 .f32 :=
  select (cmpi .slt (iota .tc S512x512 32 [1] iota_S512x512_d1_w32) (broadcast S512x512 v1))
    (mulf (rawBlock v4 v7 v10 v13) (broadcast S512x512 (Scalar.ofBits .f32 0x3D000000#32)))
    (broadcast S512x512 (Scalar.ofBits .f32 0xCB189680#32))

/-- The vector of row maxima: the maximum over the question axis from the starting word, then with that word. -/
def maxVec (v1 : Elt F .i32) (v4 v7 : Vec F S1x512x1024 .f32) (v10 : Vec F S1024x1024 .f32)
    (v13 : Vec F S1x1024 .f32) : FVec F S512 .f32 :=
  maximumf (broadcast S512 (Scalar.ofBits .f32 0xFF800000#32))
    (multiReduction .maximumf [1] S512 (maskedBlock v1 v4 v7 v10 v13) 0xFF800000#32 reduces_S512x512_S512 (.inl rfl) rfl)

/-- The block of exponentials of the masked score less its row's maximum. -/
def expBlock (v1 : Elt F .i32) (v4 v7 : Vec F S1x512x1024 .f32) (v10 : Vec F S1024x1024 .f32)
    (v13 : Vec F S1x1024 .f32) : FVec F S512x512 .f32 :=
  exp (subf (maskedBlock v1 v4 v7 v10 v13)
    (broadcastTo S512x512 (shapeCast S512x1 (maxVec v1 v4 v7 v10 v13) shapeCasts_S512_S512x1) broadcasts_S512x1_S512x512))

/-- The softmax block: each exponential over its row's sum. -/
def softmaxBlock (v1 : Elt F .i32) (v4 v7 : Vec F S1x512x1024 .f32) (v10 : Vec F S1024x1024 .f32)
    (v13 : Vec F S1x1024 .f32) : FVec F S512x512 .f32 :=
  divf (expBlock v1 v4 v7 v10 v13)
    (broadcastTo S512x512
      (shapeCast S512x1
        (multiReduction .add [1] S512 (expBlock v1 v4 v7 v10 v13) 0x00000000#32 reduces_S512x512_S512 (.inl rfl) rfl)
        shapeCasts_S512_S512x1)
      broadcasts_S512x1_S512x512)

/-- The body's softmax payload is the softmax block. -/
theorem pay3_eq (v1 : Elt F .i32) (v4 v7 : Vec F S1x512x1024 .f32) (v10 : Vec F S1024x1024 .f32)
    (v13 : Vec F S1x1024 .f32) : k0_pay3 v1 v4 v7 v10 v13 = softmaxBlock v1 v4 v7 v10 v13 := rfl

end Blocks

/-! ## Each block at coordinates, at the extended reals -/

section AtCoordinates

variable (x0 x1 : Vec Ideal S1x512x1024 .f32) (x2 : Vec Ideal S1024x1024 .f32) (x3 : Vec Ideal S1x1024 .f32)
  (ql cl : Elt Ideal .i32)

/-- The question block viewed [512, 1024] reads, at `(j, h)`, the question block at `(0, j, h)`. -/
theorem questionBlock_apply (j : Fin 512) (h : Fin 1024) :
    k0_pay2 (F := Ideal) x1 (ix2 j h) = x1 (ix3 (0 : Fin 1) j h) :=
  shapeCast_1ab_ab_apply x1 shapeCasts_S1x512x1024_S512x1024 j h

/-- The projected question block at `(j, o)`: question row `j` against the weights of output feature `o`, plus
    the bias. -/
theorem projBlock_apply (j : Fin 512) (o : Fin 1024) :
    projBlock (F := Ideal) x1 x2 x3 (ix2 j o)
      = Attention.proj (fun j h => x1 (ix3 (0 : Fin 1) j h)) (fun o h => x2 (ix2 h o))
          (fun o => x3 (ix2 (0 : Fin 1) o)) j o := by
  unfold projBlock Attention.proj
  rw [addf_apply, proj_matmul, broadcastTo_1b_ab_apply, shapeCast_self, shapeCast_self]
  simp only [questionBlock_apply, truncf_apply]

/-- The raw score block at `(i, j)`: context row `i` against projected question row `j`. -/
theorem rawBlock_apply (i j : Fin 512) :
    rawBlock (F := Ideal) x0 x1 x2 x3 (ix2 i j)
      = Attention.rawScore (fun i h => x0 (ix3 (0 : Fin 1) i h)) (fun j h => x1 (ix3 (0 : Fin 1) j h))
          (fun o h => x2 (ix2 h o)) (fun o => x3 (ix2 (0 : Fin 1) o)) i j := by
  unfold rawBlock Attention.rawScore
  rw [score_matmul]
  simp only [truncf_apply, projBlock_apply, shapeCast_1ab_ab_apply]

/-- The scaled and padded score block at `(i, j)`. The scale word is 1/32. -/
theorem maskedBlock_apply (i j : Fin 512) :
    maskedBlock (F := Ideal) ql x0 x1 x2 x3 (ix2 i j)
      = Attention.masked (fun i h => x0 (ix3 (0 : Fin 1) i h)) (fun j h => x1 (ix3 (0 : Fin 1) j h))
          (fun o h => x2 (ix2 h o)) (fun o => x3 (ix2 (0 : Fin 1) o)) ql i j := by
  unfold maskedBlock Attention.masked
  rw [select_apply, mulf_apply, rawBlock_apply]
  show Scalar.select (IntOp.cmpi .slt (iota .tc S512x512 32 [1] iota_S512x512_d1_w32 (ix2 i j)) ql)
      (_ * Ideal.ofBits .f32 0x3D000000#32) (Ideal.ofBits .f32 0xCB189680#32) = _
  rw [iota_single_apply, Attention.scale_word]

/-- The index over row `i` with question coordinate `k` inserted is `(i, k)`. -/
theorem lift_row (i k : Fin 512) : reduces_S512x512_S512.lift (ix1 i) k = ix2 i k :=
  funext fun a => Fin.ext (by match a with | ⟨0, _⟩ => rfl | ⟨1, _⟩ => rfl)

/-- A row maximum of a [512, 512] block: the fold of `max` over the row from the starting word. -/
theorem rowMax_fold (src : FVec Ideal S512x512 .f32) (i : Fin 512) :
    multiReduction (F := Ideal) .maximumf [1] S512 src 0xFF800000#32 reduces_S512x512_S512 (.inl rfl) rfl (ix1 i)
      = (Finset.univ : Finset (Fin 512)).fold max (Ideal.ofBits .f32 0xFF800000#32) (fun k => src (ix2 i k)) := by
  refine (Ideal.multiReduction_maximumf_single src 0xFF800000#32 reduces_S512x512_S512 (.inl rfl) rfl (ix1 i)).trans ?_
  have hf : (src ∘ reduces_S512x512_S512.lift (ix1 i)) = fun k : Fin 512 => src (ix2 i k) :=
    funext fun (k : Fin 512) => congrArg src (lift_row i k)
  rw [hf]
  rfl

/-- A row sum of a [512, 512] block: the sum over the row. -/
theorem rowSum_sum (src : FVec Ideal S512x512 .f32) (i : Fin 512) :
    multiReduction (F := Ideal) .add [1] S512 src 0x00000000#32 reduces_S512x512_S512 (.inl rfl) rfl (ix1 i)
      = ∑ k : Fin 512, src (ix2 i k) := by
  refine (Ideal.multiReduction_add_single src 0x00000000#32 reduces_S512x512_S512 (.inl rfl) rfl (ix1 i)).trans ?_
  exact Finset.sum_congr rfl fun (k : Fin 512) _ => congrArg src (lift_row i k)

/-- The vector of row maxima at `i`. -/
theorem maxVec_apply (i : Fin 512) :
    maxVec (F := Ideal) ql x0 x1 x2 x3 (ix1 i)
      = Attention.rowMax (fun i h => x0 (ix3 (0 : Fin 1) i h)) (fun j h => x1 (ix3 (0 : Fin 1) j h))
          (fun o h => x2 (ix2 h o)) (fun o => x3 (ix2 (0 : Fin 1) o)) ql i := by
  unfold maxVec Attention.rowMax
  rw [maximumf_apply, rowMax_fold]
  simp only [maskedBlock_apply]
  rfl

/-- The block of exponentials at `(i, j)`. -/
theorem expBlock_apply (i j : Fin 512) :
    expBlock (F := Ideal) ql x0 x1 x2 x3 (ix2 i j)
      = Attention.expo (fun i h => x0 (ix3 (0 : Fin 1) i h)) (fun j h => x1 (ix3 (0 : Fin 1) j h))
          (fun o h => x2 (ix2 h o)) (fun o => x3 (ix2 (0 : Fin 1) o)) ql i j := by
  unfold expBlock Attention.expo
  show Ideal.exp (subf (F := Ideal) (φ := .f32) _ _ (ix2 i j)) = _
  rw [subf_apply, Cert.Lib.Keepdims.broadcastTo_a1_ab_apply, Cert.Lib.Keepdims.shapeCast_a_a1_apply,
    maskedBlock_apply, maxVec_apply]

/-- The softmax block at `(i, j)`: the exponential over its row's sum. -/
theorem softmaxBlock_apply (i j : Fin 512) :
    softmaxBlock (F := Ideal) ql x0 x1 x2 x3 (ix2 i j)
      = Ideal.div
          (Attention.expo (fun i h => x0 (ix3 (0 : Fin 1) i h)) (fun j h => x1 (ix3 (0 : Fin 1) j h))
            (fun o h => x2 (ix2 h o)) (fun o => x3 (ix2 (0 : Fin 1) o)) ql i j)
          (∑ k : Fin 512, Attention.expo (fun i h => x0 (ix3 (0 : Fin 1) i h)) (fun j h => x1 (ix3 (0 : Fin 1) j h))
            (fun o h => x2 (ix2 h o)) (fun o => x3 (ix2 (0 : Fin 1) o)) ql i k) := by
  unfold softmaxBlock
  rw [divf_apply, Cert.Lib.Keepdims.broadcastTo_a1_ab_apply, Cert.Lib.Keepdims.shapeCast_a_a1_apply, rowSum_sum]
  simp only [expBlock_apply]

/-- The context-row mask at `(i, j)`: row `i` is below the context length. -/
theorem rowMask_apply (i j : Fin 512) :
    k0_pay4 (F := Ideal) cl (ix2 i j) = IntOp.cmpi .slt (BitVec.ofNat 32 i.val) cl := by
  unfold k0_pay4
  show IntOp.cmpi .slt (iota .tc S512x512 32 [0] iota_S512x512_d0_w32 (ix2 i j)) cl = _
  rw [iota_single_apply]

/-- The masked softmax block at `(i, j)`: the softmax, zeroed in the context rows at or beyond the context length. -/
theorem prob_apply (z : Ideal .f32) (hz : z = 0) (i j : Fin 512) :
    Scalar.select (k0_pay4 (F := Ideal) cl (ix2 i j)) (k0_pay3 (F := Ideal) ql x0 x1 x2 x3 (ix2 i j)) z
      = Attention.prob (fun i h => x0 (ix3 (0 : Fin 1) i h)) (fun j h => x1 (ix3 (0 : Fin 1) j h))
          (fun o h => x2 (ix2 h o)) (fun o => x3 (ix2 (0 : Fin 1) o)) ql cl i j := by
  unfold Attention.prob
  rw [rowMask_apply, pay3_eq, softmaxBlock_apply, hz]

end AtCoordinates

/-- The body's stored block at `(u, i, h)`: the attended question states of the batch entry. -/
theorem body_apply (x0 x1 : Vec Ideal S1x512x1024 .f32) (x2 : Vec Ideal S1024x1024 .f32) (x3 : Vec Ideal S1x1024 .f32)
    (ql cl : Elt Ideal .i32) (z : Ideal .f32) (hz : z = 0) (u : Fin 1) (i : Fin 512) (h : Fin 1024) :
    k0_pay1 (k0_pay2 x1) (k0_pay3 ql x0 x1 x2 x3) (k0_pay4 (F := Ideal) cl) z (ix3 u i h)
      = Cert.Attention.context (fun i h => x0 (ix3 (0 : Fin 1) i h)) (fun j h => x1 (ix3 (0 : Fin 1) j h))
          (fun o h => x2 (ix2 h o)) (fun o => x3 (ix2 (0 : Fin 1) o)) ql cl i h := by
  unfold k0_pay1 Attention.context
  rw [shapeCast_ab_1ab_apply, ctx_matmul]
  refine Finset.sum_congr rfl fun k _ => ?_
  rw [questionBlock_apply, ← prob_apply x0 x1 x2 x3 ql cl z hz i k]
  rfl

end Cert.KernelIdeal.Block

end
-- ==== Proof.KernelArray.lean ====
/-
  The kernel's result array is the attention function of `Attention.lean` of its six arguments.

  The kernel runs 32 grid points, one per batch entry. At point `t` the body finds in its staging buffers batch
  entry `t` of the context and of the question argument, the whole transposed weight, the bias as one row, and it
  loads entry `t` of each length table; it leaves one whole-block store in the output's staging buffer, and the
  pipeline writes that block back as batch entry `t` of the result. So:
    • the stored block is the body's payload of those blocks and those two words (`stored`);
    • each input block read at an entry is the argument array read at the matching entry (`cblk_apply`,
      `qblk_apply`, `wblk_apply` through the host transpose, `bblk_apply` through the host reshape), and the tables
      are the length arguments (`tbl_q`, `tbl_c`);
    • hence what point `t` writes back is block `t` of the attention function of the arguments (`flushed_eq`);
    • every index `(b, i, h)` of the result lies in the block of point `b`, so the array after the run is that
      function everywhere (`final`), and the run is re-posted with it (`run`).
-/
import proofs.«429702_j6665789243605_1_alg».proof.Proof.Gen.KernelIdeal.Frame
import proofs.«429702_j6665789243605_1_alg».proof.Proof.Attention
import proofs.«429702_j6665789243605_1_alg».proof.Proof.Body
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The body's table offset at a grid point is the point's one coordinate. -/
theorem off_val (i : grid0.Coords) : (k0_off1 i) 0 = (i 0).val := by
  show BitVec.toNat (Scalar.indexCast (BitVec.ofNat 32 (i 0).val)) = (i 0).val
  have h : (i 0).val < 32 := (i 0).isLt
  simp [Scalar.indexCast]
  omega

section Words
variable {F : FTy → Type} [FloatOps F]

/-- The one word the body loads from the question-length table is the table's entry at the grid coordinate. -/
theorem word_q (c : Dev nD) (i : grid0.Coords) (xt : TbBuf0 (F := F) c tbM0_0) :
    View.readAt (Elt F) tbM0_0.view (Rect.unit (s := S32) (k0_off1 i) S1.size (k0_off1_inb i)).toLoadRect xt (Shape.Idx.first (s := S1) (numel1_S1.symm ▸ Nat.one_pos))
      = xt (ix1 (i 0)) := by
  rw [View.readAt_apply, View.read_apply]
  show xt _ = xt (ix1 (i 0))
  refine congrArg xt (funext fun a => Fin.ext ?_)
  match a with
  | ⟨0, _⟩ => exact off_val i

/-- The same for the context-length table. -/
theorem word_c (c : Dev nD) (i : grid0.Coords) (xt : TbBuf0 (F := F) c tbM0_1) :
    View.readAt (Elt F) tbM0_1.view (Rect.unit (s := S32) (k0_off1 i) S1.size (k0_off1_inb i)).toLoadRect xt (Shape.Idx.first (s := S1) (numel1_S1.symm ▸ Nat.one_pos))
      = xt (ix1 (i 0)) := by
  rw [View.readAt_apply, View.read_apply]
  show xt _ = xt (ix1 (i 0))
  refine congrArg xt (funext fun a => Fin.ext ?_)
  match a with
  | ⟨0, _⟩ => exact off_val i

/-- What the body leaves in the output's staging buffer: its one whole-block store, the payload of the loaded
    blocks and of the two table entries at the grid coordinate. -/
theorem stored (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole)
    (x0 : Vec F S1x512x1024 .f32) (x1 : Vec F S1x512x1024 .f32) (x2 : Vec F S1024x1024 .f32) (x3 : Vec F S1x1024 .f32) (xt0 : TbBuf0 (F := F) c tbM0_0) (xt1 : TbBuf0 (F := F) c tbM0_1) :
    out0_A_4 c i arg3 harg3 arg4 harg4 arg5 harg5 arg6 harg6 arg7 harg7 x0 x1 x2 x3 xt0 xt1
      = k0_pay1 (k0_pay2 x1) (k0_pay3 (xt0 (ix1 (i 0))) x0 x1 x2 x3) (k0_pay4 (xt1 (ix1 (i 0)))) (FloatOps.ofBits .f32 0x00000000#32) := by
  unfold out0_A_4
  rw [View.read_writes_eq_canon _ _ _ (cover0_A_4 c i arg3 harg3 arg4 harg4 arg5 harg5 arg6 harg6 arg7 harg7 x0 x1 x2 x3 xt0 xt1)]
  unfold kernelRun0_A
  dsimp only
  sl_unfold_words
  rw [View.canon_unit_zero hz3]
  simp only [View.readAt_eq_ld, harg3.read_unread, harg4.read_unread, harg5.read_unread, harg6.read_unread,
    View.ld_unit_zero (S := S1x512x1024) hz3, View.ld_unit_zero (S := S1024x1024) hz2, View.ld_unit_zero (S := S1x1024) hz2]
  exact congrArg₂ (fun a b => k0_pay1 (k0_pay2 x1) (k0_pay3 a x0 x1 x2 x3) (k0_pay4 b) (FloatOps.ofBits .f32 0x00000000#32))
    (word_q c i xt0) (word_c c i xt1)

end Words

section Arrays
variable (m : (ℓ : Loc nD τ sig) → Buf (Elt Ideal) ℓ) (ρ : Dev nD → PrngReg)

/-- The region finds, as the weight window's array, the weight transposed. -/
theorem V_wt (c : Dev nD) : (V m c main_v0 : S1024x1024.Idx → Ideal .f32)
    = transpose S1024x1024 [1, 0] (m ((c : Thread nD τ).loc main_arg2)) transposes_S1024x1024_S1024x1024_1_0 := by
  dsimp only [V, hostOps0]
  after_results

/-- The region finds, as the bias window's array, the bias as one row. -/
theorem V_bias (c : Dev nD) : (V m c main_v1 : S1x1024.Idx → Ideal .f32)
    = shapeCast S1x1024 (m ((c : Thread nD τ).loc main_arg3)) shapeCasts_S1024_S1x1024 := by
  dsimp only [V, hostOps0]
  after_results
  rfl

/-- The printed index maps, decided over the 32 grid points: the two batch inputs and the output take block `t` on
    the batch axis and block 0 on the others; the weight and the bias windows stay at block (0, 0); and the point's
    one coordinate is `t`. -/
theorem idx_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = t.val ∧ cc0_transform_1 (grid0.coords t) 1 = 0 ∧ cc0_transform_1 (grid0.coords t) 2 = 0
    ∧ cc0_transform_2 (grid0.coords t) 0 = 0 ∧ cc0_transform_2 (grid0.coords t) 1 = 0
    ∧ cc0_transform_3 (grid0.coords t) 0 = 0 ∧ cc0_transform_3 (grid0.coords t) 1 = 0
    ∧ cc0_transform_4 (grid0.coords t) 0 = t.val ∧ cc0_transform_4 (grid0.coords t) 1 = 0 ∧ cc0_transform_4 (grid0.coords t) 2 = 0
    ∧ (grid0.coords t 0).val = t.val := by
  decide +kernel

/-- The input blocks at a point, under names of their literal types. -/
abbrev cblk (hO : Ok m) (c : Dev nD) (t : Fin (cfgM m hO).N) : Vec Ideal S1x512x1024 .f32 := iblk m hO c 0 t
abbrev qblk (hO : Ok m) (c : Dev nD) (t : Fin (cfgM m hO).N) : Vec Ideal S1x512x1024 .f32 := iblk m hO c 1 t
abbrev wblk (hO : Ok m) (c : Dev nD) (t : Fin (cfgM m hO).N) : Vec Ideal S1024x1024 .f32 := iblk m hO c 2 t
abbrev bblk (hO : Ok m) (c : Dev nD) (t : Fin (cfgM m hO).N) : Vec Ideal S1x1024 .f32 := iblk m hO c 3 t

/-- The context block at point `t` is batch entry `t` of the context argument. -/
theorem cblk_apply (hO : Ok m) (c : Dev nD) (t : Fin (cfgM m hO).N) (i : Fin 512) (h : Fin 1024) :
    cblk m hO c t (ix3 (0 : Fin 1) i h) = m ((c : Thread nD τ).loc main_arg0) (ix3 (grid0.coords t 0) i h) := by
  obtain ⟨e0, e1, e2, -, -, -, -, -, -, -, -, -, -, eb⟩ := idx_facts t
  have e : (((cfgM m hO).win 0).blk t).view.emb (ix3 (0 : Fin 1) i h) = ix3 (grid0.coords t 0) i h :=
    funext fun a => Fin.ext (by
      match a with
      | ⟨0, _⟩ => show cc0_transform_0 (grid0.coords t) 0 * 1 + 1 * 0 = (grid0.coords t 0).val; omega
      | ⟨1, _⟩ => show cc0_transform_0 (grid0.coords t) 1 * 512 + 1 * i.val = i.val; omega
      | ⟨2, _⟩ => show cc0_transform_0 (grid0.coords t) 2 * 1024 + 1 * h.val = h.val; omega)
  show V m c main_arg0 ((((cfgM m hO).win 0).blk t).view.emb (ix3 (0 : Fin 1) i h)) = _
  rw [e]
  exact congrFun (V_main_arg0 m c) _

/-- The question block at point `t` is batch entry `t` of the question argument. -/
theorem qblk_apply (hO : Ok m) (c : Dev nD) (t : Fin (cfgM m hO).N) (j : Fin 512) (h : Fin 1024) :
    qblk m hO c t (ix3 (0 : Fin 1) j h) = m ((c : Thread nD τ).loc main_arg1) (ix3 (grid0.coords t 0) j h) := by
  obtain ⟨-, -, -, e0, e1, e2, -, -, -, -, -, -, -, eb⟩ := idx_facts t
  have e : (((cfgM m hO).win 1).blk t).view.emb (ix3 (0 : Fin 1) j h) = ix3 (grid0.coords t 0) j h :=
    funext fun a => Fin.ext (by
      match a with
      | ⟨0, _⟩ => show cc0_transform_1 (grid0.coords t) 0 * 1 + 1 * 0 = (grid0.coords t 0).val; omega
      | ⟨1, _⟩ => show cc0_transform_1 (grid0.coords t) 1 * 512 + 1 * j.val = j.val; omega
      | ⟨2, _⟩ => show cc0_transform_1 (grid0.coords t) 2 * 1024 + 1 * h.val = h.val; omega)
  show V m c main_arg1 ((((cfgM m hO).win 1).blk t).view.emb (ix3 (0 : Fin 1) j h)) = _
  rw [e]
  exact congrFun (V_main_arg1 m c) _

/-- The weight block at every point is the whole transposed weight: at `(h, o)` the weight at `(o, h)`. -/
theorem wblk_apply (hO : Ok m) (c : Dev nD) (t : Fin (cfgM m hO).N) (h o : Fin 1024) :
    wblk m hO c t (ix2 h o) = m ((c : Thread nD τ).loc main_arg2) (ix2 o h) := by
  obtain ⟨-, -, -, -, -, -, e0, e1, -, -, -, -, -, -⟩ := idx_facts t
  have e : (((cfgM m hO).win 2).blk t).view.emb (ix2 h o) = ix2 h o :=
    funext fun a => Fin.ext (by
      match a with
      | ⟨0, _⟩ => show cc0_transform_2 (grid0.coords t) 0 * 1024 + 1 * h.val = h.val; omega
      | ⟨1, _⟩ => show cc0_transform_2 (grid0.coords t) 1 * 1024 + 1 * o.val = o.val; omega)
  show V m c main_v0 ((((cfgM m hO).win 2).blk t).view.emb (ix2 h o)) = _
  rw [e]
  exact (congrFun (V_wt m c) (ix2 h o)).trans (transpose_ix2_apply _ _ h o)

/-- The bias block at every point is the bias as one row. -/
theorem bblk_apply (hO : Ok m) (c : Dev nD) (t : Fin (cfgM m hO).N) (o : Fin 1024) :
    bblk m hO c t (ix2 (0 : Fin 1) o) = m ((c : Thread nD τ).loc main_arg3) (ix1 o) := by
  obtain ⟨-, -, -, -, -, -, -, -, e0, e1, -, -, -, -⟩ := idx_facts t
  have e : (((cfgM m hO).win 3).blk t).view.emb (ix2 (0 : Fin 1) o) = ix2 (0 : Fin 1) o :=
    funext fun a => Fin.ext (by
      match a with
      | ⟨0, _⟩ => show cc0_transform_3 (grid0.coords t) 0 * 1 + 1 * 0 = 0; omega
      | ⟨1, _⟩ => show cc0_transform_3 (grid0.coords t) 1 * 1024 + 1 * o.val = o.val; omega)
  show V m c main_v1 ((((cfgM m hO).win 3).blk t).view.emb (ix2 (0 : Fin 1) o)) = _
  rw [e]
  exact (congrFun (V_bias m c) (ix2 (0 : Fin 1) o)).trans (shapeCast_a_1a_apply _ _ (0 : Fin 1) o)

/-- The two length tables as the region finds them are the two length arguments. -/
theorem tbl_q (c : Dev nD) : tbl m 0 = m ((c : Thread nD τ).loc main_arg4) := (V_pre m c 0).symm.trans (V_main_arg4 m c)
theorem tbl_c (c : Dev nD) : tbl m 1 = m ((c : Thread nD τ).loc main_arg5) := (V_pre m c 1).symm.trans (V_main_arg5 m c)

/-- The body's stored value at an entry of its block, over any blocks and length words. -/
theorem point_value (x0 x1 : Vec Ideal S1x512x1024 .f32) (x2 : Vec Ideal S1024x1024 .f32) (x3 : Vec Ideal S1x1024 .f32)
    (ql cl : Elt Ideal .i32) (y : S1x512x1024.Idx) :
    k0_pay1 (k0_pay2 x1) (k0_pay3 ql x0 x1 x2 x3) (k0_pay4 (F := Ideal) cl) (FloatOps.ofBits .f32 0x00000000#32) y
      = Cert.Attention.context (fun i h => x0 (ix3 (0 : Fin 1) i h)) (fun j h => x1 (ix3 (0 : Fin 1) j h))
          (fun o h => x2 (ix2 h o)) (fun o => x3 (ix2 (0 : Fin 1) o)) ql cl (y 1) (y 2) := by
  exact (congrArg (k0_pay1 (k0_pay2 x1) (k0_pay3 ql x0 x1 x2 x3) (k0_pay4 (F := Ideal) cl) (FloatOps.ofBits .f32 0x00000000#32)) (eq_ix3 y)).trans
    (Cert.KernelIdeal.Block.body_apply x0 x1 x2 x3 ql cl (FloatOps.ofBits .f32 0x00000000#32) Ideal.ofBits_zero_f32 (y 0) (y 1) (y 2))

/-- The result array: the attention function of the six arguments as launched. -/
abbrev result (c : Dev nD) : Buf (Elt Ideal) ((c : Thread nD τ).loc main_v2) :=
  Cert.Attention.attend (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` of the result array. -/
theorem flushed_eq (hO : Ok m) (c : Dev nD) (t : Fin (cfgM m hO).N) :
    (dats m hO 0 c).flushed 4 t = (((cfgM m hO).win 4).blk t).view.read (Elt Ideal) (result m c) := by
  show ((cfgM m hO).win 4).cut (grid0.coords t) ((dats m hO 0 c).after 4 t) = _
  rw [after0_4]
  refine funext fun (y : S1x512x1024.Idx) => ?_
  obtain ⟨-, -, -, -, -, -, -, -, -, -, e0, e1, e2, eb⟩ := idx_facts t
  have ey : (((cfgM m hO).win 4).blk t).view.emb y = ix3 (grid0.coords t 0) (y 1) (y 2) :=
    funext fun a => Fin.ext (by
      match a with
      | ⟨0, _⟩ => show cc0_transform_4 (grid0.coords t) 0 * 1 + 1 * (y 0).val = (grid0.coords t 0).val; have : (y 0).val < 1 := (y 0).isLt; omega
      | ⟨1, _⟩ => show cc0_transform_4 (grid0.coords t) 1 * 512 + 1 * (y 1).val = (y 1).val; omega
      | ⟨2, _⟩ => show cc0_transform_4 (grid0.coords t) 2 * 1024 + 1 * (y 2).val = (y 2).val; omega)
  show out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
      (cblk m hO c t) (qblk m hO c t) (wblk m hO c t) (bblk m hO c t) (tbl m 0) (tbl m 1) y
    = result m c ((((cfgM m hO).win 4).blk t).view.emb y)
  rw [ey]
  refine (congrFun (stored (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
      (cblk m hO c t) (qblk m hO c t) (wblk m hO c t) (bblk m hO c t) (tbl m 0) (tbl m 1)) y).trans ?_
  refine (point_value (cblk m hO c t) (qblk m hO c t) (wblk m hO c t) (bblk m hO c t) (tbl m 0 (ix1 (grid0.coords t 0))) (tbl m 1 (ix1 (grid0.coords t 0))) y).trans ?_
  have hc : (fun i h => cblk m hO c t (ix3 (0 : Fin 1) i h)) = fun i h => m ((c : Thread nD τ).loc main_arg0) (ix3 (grid0.coords t 0) i h) :=
    funext fun i => funext fun h => cblk_apply m hO c t i h
  have hq : (fun j h => qblk m hO c t (ix3 (0 : Fin 1) j h)) = fun j h => m ((c : Thread nD τ).loc main_arg1) (ix3 (grid0.coords t 0) j h) :=
    funext fun j => funext fun h => qblk_apply m hO c t j h
  have hw : (fun o h => wblk m hO c t (ix2 h o)) = fun o h => m ((c : Thread nD τ).loc main_arg2) (ix2 o h) :=
    funext fun o => funext fun h => wblk_apply m hO c t h o
  have hb : (fun o => bblk m hO c t (ix2 (0 : Fin 1) o)) = fun o => m ((c : Thread nD τ).loc main_arg3) (ix1 o) :=
    funext fun o => bblk_apply m hO c t o
  rw [hc, hq, hw, hb, tbl_q m c, tbl_c m c]
  rfl

/-- THE ARRAY after the run: every index `(b, i, h)` lies in the block of point `b`, which writes back, so the array
    is the attention function of the arguments everywhere. -/
theorem final (hO : Ok m) (c : Dev nD) : (dats m hO 0 c).arrAt 4 (cfgM m hO).N = result m c :=
  (dats m hO 0 c).arrAt_eq_of_cover 4 (result m c) (fun t _ => flushed_eq m hO c t) fun (i : S32x512x1024.Idx) => by
    have hN : grid0.N = 32 := N_0
    have hi0 : (i 0).val < 32 := (i 0).isLt
    have hi1 : (i 1).val < 512 := (i 1).isLt
    have hi2 : (i 2).val < 1024 := (i 2).isLt
    let t : Fin (cfgM m hO).N := ⟨(i 0).val, by show (i 0).val < grid0.N; omega⟩
    obtain ⟨-, -, -, -, -, -, -, -, -, -, e0, e1, e2, -⟩ := idx_facts t
    have ht : t.val = (i 0).val := rfl
    refine ⟨t, flush0_4 (adm m hO) t, ?_⟩
    show i ∈ ((View.whole main_v2).slice (((cfgM m hO).win 4).rect t)).set
    refine (congrArg (fun s => i ∈ s) (View.set_slice_whole main_v2 (((cfgM m hO).win 4).rect t))).mpr (Rect.mem_set_unit.mpr fun (a : Fin 3) => ?_)
    match a with
    | ⟨0, _⟩ => show cc0_transform_4 (grid0.coords t) 0 * 1 ≤ (i 0).val ∧ (i 0).val < cc0_transform_4 (grid0.coords t) 0 * 1 + 1; omega
    | ⟨1, _⟩ => show cc0_transform_4 (grid0.coords t) 1 * 512 ≤ (i 1).val ∧ (i 1).val < cc0_transform_4 (grid0.coords t) 1 * 512 + 512; omega
    | ⟨2, _⟩ => show cc0_transform_4 (grid0.coords t) 2 * 1024 ≤ (i 2).val ∧ (i 2).val < cc0_transform_4 (grid0.coords t) 2 * 1024 + 1024; omega

/-- The frame run re-posted: the result array at the attention function of the arguments, the arguments unchanged. -/
theorem run (hO : Ok m) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 4).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Arrays

end Cert.KernelIdeal.Whole

end
-- ==== Proof.lean ====
/-
  The certificate of a fused ragged attention kernel against its reference, over the extended reals.

  For each of 32 batch entries, with context states `xc` and question states `xq` (512 × 1024 each), a linear
  layer (weight `w`, bias), and a question length and a context length:
    project the question states through the linear layer; score every context row against every projected
    question row and scale by 1/√1024; put the pad score in the question columns at or beyond the question length;
    take the softmax over the question axis; zero the context rows at or beyond the context length; and sum the
    question states with those weights.
  The kernel does this one batch entry per grid point, multiplying the score by the word of 1/32; the reference
  does it on whole arrays, dividing the score by the square root of the word of 1024. Since 1024 = 32², dividing by
  that root is multiplying by 1/32 at every extended real, so the two are one function, `Attention.attend`, of the
  six arguments: the reference's run ends at it (`Reference.lean`, over the generated run and its stage lemmas), and
  the kernel's run ends at it (`KernelArray.lean`, over the generated frame run; the body's arithmetic in `Body.lean`
  and `Products.lean`). No finiteness is used: the law that joins the two sides holds at the infinities too.
  The frames: the kernel's two are the generated ones, whose side condition on the prefetched tables is the
  printed `True` (no index map reads a table); the reference's is its generated run with the result dropped.
  The ideal pass rewrote nothing, so the idealization conjunct is `True`.
-/
import proofs.«429702_j6665789243605_1_alg».proof.Defs
import proofs.«429702_j6665789243605_1_alg».proof.Proof.Gen.Kernel
import proofs.«429702_j6665789243605_1_alg».proof.Proof.Gen.Kernel.Skeleton
import proofs.«429702_j6665789243605_1_alg».proof.Proof.Gen.Kernel.Launch
import proofs.«429702_j6665789243605_1_alg».proof.Proof.Gen.Kernel.Points
import proofs.«429702_j6665789243605_1_alg».proof.Proof.Gen.Kernel.Frame
import proofs.«429702_j6665789243605_1_alg».proof.Proof.Gen.KernelIdeal
import proofs.«429702_j6665789243605_1_alg».proof.Proof.Gen.KernelIdeal.Skeleton
import proofs.«429702_j6665789243605_1_alg».proof.Proof.Gen.KernelIdeal.Launch
import proofs.«429702_j6665789243605_1_alg».proof.Proof.Gen.KernelIdeal.Points
import proofs.«429702_j6665789243605_1_alg».proof.Proof.Gen.KernelIdeal.Frame
import proofs.«429702_j6665789243605_1_alg».proof.Proof.Gen.ReferenceIdeal
import proofs.«429702_j6665789243605_1_alg».proof.Proof.Gen.Pre_finite_inputs
import proofs.«429702_j6665789243605_1_alg».proof.Proof.Gen.ReferenceIdeal.Run
import proofs.«429702_j6665789243605_1_alg».proof.Proof.Gen.ReferenceIdeal.Read
import proofs.«429702_j6665789243605_1_alg».proof.Proof.Reference
import proofs.«429702_j6665789243605_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame, its table side condition the printed `True`. -/
theorem frame_k : Cert.frame_Kernel := fun m ρ _ =>
  Cert.Kernel.Gen.frame m ρ (show Cert.Kernel.Gen.Ok m from trivial)

/-- The idealized kernel likewise. -/
theorem frame_ki : Cert.frame_KernelIdeal := fun m ρ _ =>
  Cert.KernelIdeal.Gen.frame m ρ (show Cert.KernelIdeal.Gen.Ok m from trivial)

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the six arguments, end with the result array at the attention
    function of those arguments: the kernel's run by `KernelArray.lean`, the reference's by `Reference.lean`. -/
theorem algebraic : Cert.algebraic_KernelIdeal_ReferenceIdeal := by
  intro m ρ m' ρ' _ hagree
  refine ⟨fun c => Cert.KernelIdeal.Whole.result m c,
    Cert.KernelIdeal.Whole.run m ρ (show Cert.KernelIdeal.Gen.Ok m from trivial), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq_attend,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
